-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.HostStretch.lean ====
import proofs.«127280_j89404039233749_1_alg».proof.Proof.Gen.KernelIdeal.Launch
import proofs.«127280_j89404039233749_1_alg».proof.Proof.RefRead
import Idealize.ShloMosaic.Lib.StableHlo.Run
import Idealize.ShloMosaic.Lib.ValueIdx
import Idealize.ShloMosaic.Lib.ValueLayout

/-!
  The host operations of the kernel's program between its four regions, read one stretch at a time from an ARBITRARY
  valuation `X` of the TensorCore's buffers (so that no earlier stretch is ever unfolded), each result stated as the
  reference program's own stage of the same name: the two programs build the edge lists (the graph's edges followed by
  one self-loop per node), the degree normalisation `norm = dinv[src] * dinv[dst]` and the two neighbourhood sums
  (`gather` of the rows of `h` at `src`, scaling by `norm`, `scatter`-add at `dst`) by the same operations in the same order.
  A buffer a stretch does not write keeps its contents (`…_keeps_…`).
-/

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx
open Cert.ReferenceIdeal.ReadP

variable {F : FTy → Type} [FloatOps F] (X : Valuation τ sig (Elt F))

/-! ## The first stretch: the edge lists with self-loops, the degrees, their positivity mask and inverse square roots -/

/-- The source list: row 0 of the edge array followed by the nodes 0 … 49999. -/
theorem first_v3 : after (hostOps0 (F := F)) X (Proc.devRef .tc main_v3) = val_main_v3 (F := F) (X (Proc.devRef .tc main_arg1)) := by
  dsimp only [hostOps0]
  after_results
  rfl
/-- The destination list: row 1 of the edge array followed by the nodes 0 … 49999. -/
theorem first_v6 : after (hostOps0 (F := F)) X (Proc.devRef .tc main_v6) = val_main_v6 (F := F) (X (Proc.devRef .tc main_arg1)) := by
  dsimp only [hostOps0]
  after_results
  rfl
/-- The mask "the node's degree (the count of its occurrences among the destinations) is positive". -/
theorem first_v12 : after (hostOps0 (F := F)) X (Proc.devRef .tc main_v12) = val_main_v12 (F := F) (X (Proc.devRef .tc main_arg1)) := by
  dsimp only [hostOps0]
  after_results
  rfl
/-- The inverse square roots of the degrees. -/
theorem first_v13 : after (hostOps0 (F := F)) X (Proc.devRef .tc main_v13) = val_main_v13 (F := F) (X (Proc.devRef .tc main_arg1)) := by
  dsimp only [hostOps0]
  after_results
  rfl
/-- The scalar zero the selection falls back to. -/
theorem first_cst_2 : after (hostOps0 (F := F)) X (Proc.devRef .tc main_cst_2) = val_main_cst_2 (F := F) := by
  dsimp only [hostOps0]
  after_results
  rfl
theorem first_keeps_arg0 : after (hostOps0 (F := F)) X (Proc.devRef .tc main_arg0) = X (Proc.devRef .tc main_arg0) := by
  dsimp only [hostOps0]
  after_results
theorem first_keeps_arg2 : after (hostOps0 (F := F)) X (Proc.devRef .tc main_arg2) = X (Proc.devRef .tc main_arg2) := by
  dsimp only [hostOps0]
  after_results
theorem first_keeps_arg3 : after (hostOps0 (F := F)) X (Proc.devRef .tc main_arg3) = X (Proc.devRef .tc main_arg3) := by
  dsimp only [hostOps0]
  after_results
theorem first_keeps_arg4 : after (hostOps0 (F := F)) X (Proc.devRef .tc main_arg4) = X (Proc.devRef .tc main_arg4) := by
  dsimp only [hostOps0]
  after_results
theorem first_keeps_arg5 : after (hostOps0 (F := F)) X (Proc.devRef .tc main_arg5) = X (Proc.devRef .tc main_arg5) := by
  dsimp only [hostOps0]
  after_results

/-! ## The selection `where(deg > 0, rsqrt(deg), 0)` -/

/-- `dinv`: the inverse square root of the degree where it is positive, zero elsewhere. -/
theorem where_v14 (e : (⟨Cert.ReferenceIdeal.S2x800000, .i32⟩ : BufTy).Contents (Elt F))
    (h12 : X (Proc.devRef .tc main_v12) = val_main_v12 (F := F) e) (h13 : X (Proc.devRef .tc main_v13) = val_main_v13 (F := F) e)
    (hc : X (Proc.devRef .tc main_cst_2) = val_main_cst_2 (F := F)) :
    after (hostOps0_1 (F := F)) X (Proc.devRef .tc main_v14) = val_main_v14 (F := F) e := by
  dsimp only [hostOps0_1]
  after_results
  rw [h12, h13, hc]
  rfl
theorem where_keeps_v3 : after (hostOps0_1 (F := F)) X (Proc.devRef .tc main_v3) = X (Proc.devRef .tc main_v3) := by
  dsimp only [hostOps0_1]
  after_results
theorem where_keeps_v6 : after (hostOps0_1 (F := F)) X (Proc.devRef .tc main_v6) = X (Proc.devRef .tc main_v6) := by
  dsimp only [hostOps0_1]
  after_results
theorem where_keeps_arg0 : after (hostOps0_1 (F := F)) X (Proc.devRef .tc main_arg0) = X (Proc.devRef .tc main_arg0) := by
  dsimp only [hostOps0_1]
  after_results
theorem where_keeps_arg2 : after (hostOps0_1 (F := F)) X (Proc.devRef .tc main_arg2) = X (Proc.devRef .tc main_arg2) := by
  dsimp only [hostOps0_1]
  after_results
theorem where_keeps_arg3 : after (hostOps0_1 (F := F)) X (Proc.devRef .tc main_arg3) = X (Proc.devRef .tc main_arg3) := by
  dsimp only [hostOps0_1]
  after_results
theorem where_keeps_arg4 : after (hostOps0_1 (F := F)) X (Proc.devRef .tc main_arg4) = X (Proc.devRef .tc main_arg4) := by
  dsimp only [hostOps0_1]
  after_results
theorem where_keeps_arg5 : after (hostOps0_1 (F := F)) X (Proc.devRef .tc main_arg5) = X (Proc.devRef .tc main_arg5) := by
  dsimp only [hostOps0_1]
  after_results

/-! ## The edge weights `norm = dinv[src] * dinv[dst]` -/

theorem norm_v29 (e : (⟨Cert.ReferenceIdeal.S2x800000, .i32⟩ : BufTy).Contents (Elt F))
    (h14 : X (Proc.devRef .tc main_v14) = val_main_v14 (F := F) e) (h3 : X (Proc.devRef .tc main_v3) = val_main_v3 (F := F) e)
    (h6 : X (Proc.devRef .tc main_v6) = val_main_v6 (F := F) e) :
    after (hostOps0_2 (F := F)) X (Proc.devRef .tc main_v29) = val_main_v29 (F := F) e := by
  dsimp only [hostOps0_2]
  after_results_simp
  rw [h14, h3, h6]
  rfl
theorem norm_keeps_v3 : after (hostOps0_2 (F := F)) X (Proc.devRef .tc main_v3) = X (Proc.devRef .tc main_v3) := by
  dsimp only [hostOps0_2]
  after_results
theorem norm_keeps_v6 : after (hostOps0_2 (F := F)) X (Proc.devRef .tc main_v6) = X (Proc.devRef .tc main_v6) := by
  dsimp only [hostOps0_2]
  after_results
theorem norm_keeps_arg0 : after (hostOps0_2 (F := F)) X (Proc.devRef .tc main_arg0) = X (Proc.devRef .tc main_arg0) := by
  dsimp only [hostOps0_2]
  after_results
theorem norm_keeps_arg2 : after (hostOps0_2 (F := F)) X (Proc.devRef .tc main_arg2) = X (Proc.devRef .tc main_arg2) := by
  dsimp only [hostOps0_2]
  after_results
theorem norm_keeps_arg3 : after (hostOps0_2 (F := F)) X (Proc.devRef .tc main_arg3) = X (Proc.devRef .tc main_arg3) := by
  dsimp only [hostOps0_2]
  after_results
theorem norm_keeps_arg4 : after (hostOps0_2 (F := F)) X (Proc.devRef .tc main_arg4) = X (Proc.devRef .tc main_arg4) := by
  dsimp only [hostOps0_2]
  after_results
theorem norm_keeps_arg5 : after (hostOps0_2 (F := F)) X (Proc.devRef .tc main_arg5) = X (Proc.devRef .tc main_arg5) := by
  dsimp only [hostOps0_2]
  after_results

/-! ## The first neighbourhood sum (256 features) and the first bias as a one-row matrix -/

/-- The rows of `h` gathered at the sources, scaled by the edge weights and summed at the destinations: the reference's
    stage of the same operations, once `h` is its matrix product. -/
theorem agg1_v43 (x : (⟨Cert.ReferenceIdeal.S50000x128, .f32⟩ : BufTy).Contents (Elt F)) (e : (⟨Cert.ReferenceIdeal.S2x800000, .i32⟩ : BufTy).Contents (Elt F))
    (w : (⟨Cert.ReferenceIdeal.S128x256, .f32⟩ : BufTy).Contents (Elt F))
    (h30 : X (Proc.devRef .tc main_v30) = val_main_v30 (F := F) x w) (h3 : X (Proc.devRef .tc main_v3) = val_main_v3 (F := F) e)
    (h6 : X (Proc.devRef .tc main_v6) = val_main_v6 (F := F) e) (h29 : X (Proc.devRef .tc main_v29) = val_main_v29 (F := F) e) :
    after (hostOps1 (F := F)) X (Proc.devRef .tc main_v43) = val_main_v43 (F := F) x e w := by
  dsimp only [hostOps1]
  after_results_simp
  rw [h30, h3, h6, h29]
  rfl

/-- A vector of length `n` cast to the one-row matrix `[1, n]` is its broadcast along a new leading unit axis. -/
theorem row_of_vector_256 (b : (⟨Cert.ReferenceIdeal.S256, .f32⟩ : BufTy).Contents (Elt F)) :
    (shapeCast S1x256 (show (S256.Idx → F .f32) from b) shapeCasts_S256_S1x256 : S1x256.Idx → F .f32) = val_main_v44 (F := F) b := by
  funext i
  obtain ⟨u, j, rfl⟩ : ∃ (u : Fin 1) (j : Fin 256), i = ix2 u j := ⟨i 0, i 1, eq_ix2 i⟩
  rw [val_main_v44_apply]
  refine (shapeCast_a_1a_apply (a := 256) b shapeCasts_S256_S1x256 u j).trans (congrArg b (funext fun a => Fin.ext ?_))
  match a with
  | ⟨0, _⟩ => rfl

theorem agg1_v44 : after (hostOps1 (F := F)) X (Proc.devRef .tc main_v44) = val_main_v44 (F := F) (X (Proc.devRef .tc main_arg3)) := by
  dsimp only [hostOps1]
  after_results
  exact row_of_vector_256 _
theorem agg1_keeps_v3 : after (hostOps1 (F := F)) X (Proc.devRef .tc main_v3) = X (Proc.devRef .tc main_v3) := by
  dsimp only [hostOps1]
  after_results
theorem agg1_keeps_v6 : after (hostOps1 (F := F)) X (Proc.devRef .tc main_v6) = X (Proc.devRef .tc main_v6) := by
  dsimp only [hostOps1]
  after_results
theorem agg1_keeps_v29 : after (hostOps1 (F := F)) X (Proc.devRef .tc main_v29) = X (Proc.devRef .tc main_v29) := by
  dsimp only [hostOps1]
  after_results
theorem agg1_keeps_arg4 : after (hostOps1 (F := F)) X (Proc.devRef .tc main_arg4) = X (Proc.devRef .tc main_arg4) := by
  dsimp only [hostOps1]
  after_results
theorem agg1_keeps_arg5 : after (hostOps1 (F := F)) X (Proc.devRef .tc main_arg5) = X (Proc.devRef .tc main_arg5) := by
  dsimp only [hostOps1]
  after_results

/-! ## The second neighbourhood sum (128 features) and the second bias as a one-row matrix -/

theorem agg2_v59 (x : (⟨Cert.ReferenceIdeal.S50000x128, .f32⟩ : BufTy).Contents (Elt F)) (e : (⟨Cert.ReferenceIdeal.S2x800000, .i32⟩ : BufTy).Contents (Elt F))
    (w1 : (⟨Cert.ReferenceIdeal.S128x256, .f32⟩ : BufTy).Contents (Elt F)) (b1 : (⟨Cert.ReferenceIdeal.S256, .f32⟩ : BufTy).Contents (Elt F))
    (w2 : (⟨Cert.ReferenceIdeal.S256x128, .f32⟩ : BufTy).Contents (Elt F))
    (h46 : X (Proc.devRef .tc main_v46) = val_main_v48 (F := F) x e w1 b1 w2) (h3 : X (Proc.devRef .tc main_v3) = val_main_v3 (F := F) e)
    (h6 : X (Proc.devRef .tc main_v6) = val_main_v6 (F := F) e) (h29 : X (Proc.devRef .tc main_v29) = val_main_v29 (F := F) e) :
    after (hostOps3 (F := F)) X (Proc.devRef .tc main_v59) = val_main_v61 (F := F) x e w1 b1 w2 := by
  dsimp only [hostOps3]
  after_results_simp
  rw [h46, h3, h6, h29]
  rfl

theorem row_of_vector_128 (b : (⟨Cert.ReferenceIdeal.S128, .f32⟩ : BufTy).Contents (Elt F)) :
    (shapeCast S1x128 (show (S128.Idx → F .f32) from b) shapeCasts_S128_S1x128 : S1x128.Idx → F .f32) = val_main_v62 (F := F) b := by
  funext i
  obtain ⟨u, j, rfl⟩ : ∃ (u : Fin 1) (j : Fin 128), i = ix2 u j := ⟨i 0, i 1, eq_ix2 i⟩
  rw [val_main_v62_apply]
  refine (shapeCast_a_1a_apply (a := 128) b shapeCasts_S128_S1x128 u j).trans (congrArg b (funext fun a => Fin.ext ?_))
  match a with
  | ⟨0, _⟩ => rfl

theorem agg2_v60 : after (hostOps3 (F := F)) X (Proc.devRef .tc main_v60) = val_main_v62 (F := F) (X (Proc.devRef .tc main_arg5)) := by
  dsimp only [hostOps3]
  after_results
  exact row_of_vector_128 _

end Cert.KernelIdeal.Host

end
-- ==== Proof.Region0.lean ====
import proofs.«127280_j89404039233749_1_alg».proof.Proof.Gen.KernelIdeal.Frame
import proofs.«127280_j89404039233749_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

/-! # Region 0: the first layer's matrix product, block rows to the whole array

The region multiplies a [50000, 128] array by a [128, 256] array, 5000 rows at a grid point. Entry (r, j) of
the result is the sum over k of x (r, k) * w (k, j): on the kernel side the block holding row r computes it from its
5000 rows of x and the whole of w; on the reference side the host's dot_general is the same sum. Both are read
index by index against that plain sum. -/

noncomputable section
namespace Cert.KernelIdeal.Region0
open Idealize.ShloMosaic Idealize.ShloMosaic.TcCoe Idealize.SL.Sem
open Cert.KernelIdeal Cert.KernelIdeal.Gen

/-! ## The product as a plain sum -/

/-- Entry (r, j) of the product of a [50000, 128] array and a [128, 256] array: the sum over the 128 contracted
    positions of x (r, k) * w (k, j). -/
abbrev product (x : S50000x128.Idx → EReal) (w : S128x256.Idx → EReal) : S50000x256.Idx → EReal :=
  fun i => ∑ k : Fin 128, x (ValueIdx.ix2 (i 0) k) * w (ValueIdx.ix2 k (i 1))

/-! ## The reference's dot_general is that sum -/

abbrev refDot := Cert.ReferenceIdeal.dot_S50000x128_S128x256_S50000x256_1_0_0_1_n_n

/-- The left operand's row is the output's row. -/
theorem ref_lhs_row (i : S50000x256.Idx) (q : refDot.contr.Idx) : (refDot.lhsIdx i q 0).val = (i 0).val := by
  unfold DotDims.lhsIdx
  rw [dif_neg (show ¬(0 : Fin S50000x128.rank) ∈ refDot.lhsBatch by decide), dif_pos (show (0 : Fin S50000x128.rank) ∈ refDot.lhsNonContracting by decide)]
  rfl
/-- The left operand's column is the contracted position. -/
theorem ref_lhs_col (i : S50000x256.Idx) (q : refDot.contr.Idx) : (refDot.lhsIdx i q 1).val = (q ⟨0, by decide⟩).val :=
  refDot.lhsIdx_val_of_single rfl i q
/-- The right operand's row is the contracted position. -/
theorem ref_rhs_row (i : S50000x256.Idx) (q : refDot.contr.Idx) : (refDot.rhsIdx i q 0).val = (q ⟨0, by decide⟩).val :=
  refDot.rhsIdx_val_of_single rfl i q
/-- The right operand's column is the output's column. -/
theorem ref_rhs_col (i : S50000x256.Idx) (q : refDot.contr.Idx) : (refDot.rhsIdx i q 1).val = (i 1).val := by
  unfold DotDims.rhsIdx
  rw [dif_neg (show ¬(1 : Fin S128x256.rank) ∈ refDot.rhsBatch by decide), dif_pos (show (1 : Fin S128x256.rank) ∈ refDot.rhsNonContracting by decide)]
  rfl

/-- The host's dot_general at an index is the plain sum. -/
theorem ref_apply (x : FVec Ideal S50000x128 .f32) (w : FVec Ideal S128x256 .f32) (i : S50000x256.Idx) :
    Host.dotGeneral (F := Ideal) (φ₁ := .f32) (φ₂ := .f32) refDot none x w i = product x w i := by
  simp only [Host.dotGeneral]
  rw [Ideal.dotGeneral_apply, ← Equiv.sum_comp (ValueIdx.contrEquiv1 refDot 128 rfl rfl).symm]
  refine Finset.sum_congr rfl fun k _ => ?_
  have hk := ValueIdx.contrEquiv1_symm_val refDot 128 rfl rfl k
  have el : refDot.lhsIdx i ((ValueIdx.contrEquiv1 refDot 128 rfl rfl).symm k) = ValueIdx.ix2 (i 0) k := funext fun a => Fin.ext (by
    match a with
    | ⟨0, _⟩ => exact ref_lhs_row _ _
    | ⟨1, _⟩ => exact (ref_lhs_col _ _).trans hk)
  have er : refDot.rhsIdx i ((ValueIdx.contrEquiv1 refDot 128 rfl rfl).symm k) = ValueIdx.ix2 k (i 1) := funext fun a => Fin.ext (by
    match a with
    | ⟨0, _⟩ => exact (ref_rhs_row _ _).trans hk
    | ⟨1, _⟩ => exact ref_rhs_col _ _)
  rw [el, er]
  rfl

/-! ## The kernel's block product is that sum over the block's rows -/

abbrev blkDot := dot_S5000x128_S128x256_S5000x256_1_0_0_1_n_n

theorem blk_lhs_row (j : S5000x256.Idx) (q : blkDot.contr.Idx) : (blkDot.lhsIdx j q 0).val = (j 0).val := by
  unfold DotDims.lhsIdx
  rw [dif_neg (show ¬(0 : Fin S5000x128.rank) ∈ blkDot.lhsBatch by decide), dif_pos (show (0 : Fin S5000x128.rank) ∈ blkDot.lhsNonContracting by decide)]
  rfl
theorem blk_lhs_col (j : S5000x256.Idx) (q : blkDot.contr.Idx) : (blkDot.lhsIdx j q 1).val = (q ⟨0, by decide⟩).val :=
  blkDot.lhsIdx_val_of_single rfl j q
theorem blk_rhs_row (j : S5000x256.Idx) (q : blkDot.contr.Idx) : (blkDot.rhsIdx j q 0).val = (q ⟨0, by decide⟩).val :=
  blkDot.rhsIdx_val_of_single rfl j q
theorem blk_rhs_col (j : S5000x256.Idx) (q : blkDot.contr.Idx) : (blkDot.rhsIdx j q 1).val = (j 1).val := by
  unfold DotDims.rhsIdx
  rw [dif_neg (show ¬(1 : Fin S128x256.rank) ∈ blkDot.rhsBatch by decide), dif_pos (show (1 : Fin S128x256.rank) ∈ blkDot.rhsNonContracting by decide)]
  rfl

/-- The body's payload at an index of the block: the casts to bf16 are the identity at the ideal values and the
    accumulator is zero, so it is the sum over k of the block's row times the weight's column. -/
theorem payload_apply (x0 : Vec Ideal S5000x128 .f32) (x1 : Vec Ideal S128x256 .f32) (j : S5000x256.Idx) :
    k0_pay1 (F := Ideal) x0 x1 j = ∑ k : Fin 128, x0 (ValueIdx.ix2 (j 0) k) * x1 (ValueIdx.ix2 k (j 1)) := by
  unfold k0_pay1
  refine (Ideal.matmul_constant_zero_apply blkDot none _ _ j).trans ?_
  rw [← Equiv.sum_comp (ValueIdx.contrEquiv1 blkDot 128 rfl rfl).symm]
  refine Finset.sum_congr rfl fun k _ => ?_
  have hk := ValueIdx.contrEquiv1_symm_val blkDot 128 rfl rfl k
  have el : blkDot.lhsIdx j ((ValueIdx.contrEquiv1 blkDot 128 rfl rfl).symm k) = ValueIdx.ix2 (j 0) k := funext fun a => Fin.ext (by
    match a with
    | ⟨0, _⟩ => exact blk_lhs_row _ _
    | ⟨1, _⟩ => exact (blk_lhs_col _ _).trans hk)
  have er : blkDot.rhsIdx j ((ValueIdx.contrEquiv1 blkDot 128 rfl rfl).symm k) = ValueIdx.ix2 k (j 1) := funext fun a => Fin.ext (by
    match a with
    | ⟨0, _⟩ => exact (blk_rhs_row _ _).trans hk
    | ⟨1, _⟩ => exact blk_rhs_col _ _)
  rw [el, er]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the row block of x moves with the output's row block, x is not
    cut along its columns, the weight is one block, and the output's row block is one of the ten. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem row_block_onto : ∀ q : Fin 10, ∃ t : Fin cfg0.N, win0_2.index t = ![q.val, 0] :=
  (by decide +kernel : ∀ q : Fin 10, ∃ t : Fin grid0.N, win0_2.index t = ![q.val, 0])

/-- What point t writes back is row block t of the product of the operand arrays as the region finds them. -/
theorem flushed_eq (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x256) zero_offsets]
  obtain ⟨e0, e1, e2, e3, e4, e5⟩ := block_indices t
  funext j
  refine (payload_apply (iblk0 V c 0 t) (iblk0 V c 1 t) j).trans ?_
  rw [View.read_apply]
  refine Finset.sum_congr rfl fun k _ => ?_
  have h0 : ((cfg0.win 0).blk t).view.emb (ValueIdx.ix2 (n0 := 5000) (n1 := 128) (j 0) k)
      = ValueIdx.ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ValueIdx.ix2 (n0 := 128) (n1 := 256) k (j 1))
      = ValueIdx.ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  exact congrArg₂ (fun a b : EReal => a * b) (congrArg (V c main_arg0) h0) (congrArg (V c main_arg2) h1)

/-- An index of the array is in point t's block iff each coordinate is in the block's range on its axis. -/
theorem mem_row_block (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- The row blocks tile the array: row r lies in the block of the point whose row block is r / 5000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := row_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_row_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the region's run is the product of the operand arrays as the region found them. -/
theorem array_product (c : Dev nD) :
    (dat0 (F := Ideal) V c).arrAt 2 cfg0.N = product (V c main_arg0) (V c main_arg2) :=
  (dat0 (F := Ideal) V c).arrAt_eq_of_cover 2 (product (V c main_arg0) (V c main_arg2)) (fun t _ => flushed_eq V c t) covered

/-- The same, stated with the reference's own dot_general. -/
theorem array_eq (c : Dev nD) :
    (dat0 (F := Ideal) V c).arrAt 2 cfg0.N
      = Host.dotGeneral (F := Ideal) (φ₁ := .f32) (φ₂ := .f32) Cert.ReferenceIdeal.dot_S50000x128_S128x256_S50000x256_1_0_0_1_n_n none
          (V c main_arg0 : FVec Ideal Cert.ReferenceIdeal.S50000x128 .f32) (V c main_arg2 : FVec Ideal Cert.ReferenceIdeal.S128x256 .f32) :=
  (array_product V c).trans (funext fun i => (ref_apply (V c main_arg0) (V c main_arg2) i).symm)

end Cert.KernelIdeal.Region0
end
-- ==== Proof.Region1.lean ====
import proofs.«127280_j89404039233749_1_alg».proof.Proof.Gen.KernelIdeal.Frame
import proofs.«127280_j89404039233749_1_alg».proof.Proof.Gen.ReferenceIdeal
import Idealize.ShloMosaic.PureOps.Ideal
import Idealize.ShloMosaic.Lib.Pipeline.Value
import Idealize.ShloMosaic.Lib.ValueIdx

set_option maxRecDepth 16384

noncomputable section
namespace Cert.KernelIdeal.Region1
open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! # Region 1: the bias row added to every row, then the maximum with zero

Entry `(r, j)` of the output array is `max (a (r, j) + b (0, j)) 0`, where `a` is the [50000, 256] operand and `b` the
[1, 256] bias row. Each grid point computes that on one block of 5000 rows; the ten blocks tile the array. -/

/-- The whole-array function: the bias row broadcast along the rows, added, then the maximum with the broadcast zero. -/
abbrev biasRelu (a : FVec Ideal Cert.ReferenceIdeal.S50000x256 .f32) (b : FVec Ideal Cert.ReferenceIdeal.S1x256 .f32) :
    FVec Ideal Cert.ReferenceIdeal.S50000x256 .f32 :=
  maximumf (F := Ideal) (addf a
      (broadcastInDim Cert.ReferenceIdeal.S50000x256 ![0, 1] Cert.ReferenceIdeal.Facts₀.bcast_S1x256_S50000x256_0_1 b))
    (broadcastInDim Cert.ReferenceIdeal.S50000x256 ![] Cert.ReferenceIdeal.Facts₀.bcast_S_S50000x256 (constant (F := Ideal) Cert.ReferenceIdeal.S_ .f32 0x00000000#32))

/-- The bias row's index under column `n`: row 0, column `n`. -/
def biasIdx (n : Nat) (hn : n < 256) : S1x256.Idx := fun a => match a with
  | ⟨0, _⟩ => ⟨0, Nat.one_pos⟩
  | ⟨1, _⟩ => ⟨n, hn⟩

/-- The whole-array function read at an index. -/
theorem biasRelu_apply (a : FVec Ideal Cert.ReferenceIdeal.S50000x256 .f32) (b : FVec Ideal Cert.ReferenceIdeal.S1x256 .f32)
    (i : Cert.ReferenceIdeal.S50000x256.Idx) :
    biasRelu a b i = max (a i + b (biasIdx (i 1).val (i 1).isLt)) (Ideal.ofBits .f32 0x00000000#32) := by
  show max (a i + broadcastInDim Cert.ReferenceIdeal.S50000x256 ![0, 1] Cert.ReferenceIdeal.Facts₀.bcast_S1x256_S50000x256_0_1 b i)
      (broadcastInDim Cert.ReferenceIdeal.S50000x256 ![] Cert.ReferenceIdeal.Facts₀.bcast_S_S50000x256 (constant (F := Ideal) Cert.ReferenceIdeal.S_ .f32 0x00000000#32) i) = _
  rw [broadcastInDim_apply _ Cert.ReferenceIdeal.Facts₀.bcast_S1x256_S50000x256_0_1 b i (biasIdx (i 1).val (i 1).isLt) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  rw [broadcastInDim_apply _ Cert.ReferenceIdeal.Facts₀.bcast_S_S50000x256 (constant (F := Ideal) Cert.ReferenceIdeal.S_ .f32 0x00000000#32) i (fun a => a.elim0) (fun a => a.elim0)]
  rfl

/-- The body's payload on one block, read at an index of the block. -/
theorem payload_apply (x0 : Vec Ideal S5000x256 .f32) (x1 : Vec Ideal S1x256 .f32) (j : S5000x256.Idx) :
    k1_pay1 x0 x1 j = max (x0 j + x1 (biasIdx (j 1).val (j 1).isLt)) (Ideal.ofBits .f32 0x00000000#32) := by
  unfold k1_pay1
  rw [shapeCast_self, shapeCast_self]
  show max (x0 j + broadcastTo S5000x256 x1 broadcasts_S1x256_S5000x256 j) (Ideal.ofBits .f32 0x00000000#32) = _
  rw [broadcastTo_apply x1 broadcasts_S1x256_S5000x256 j (biasIdx (j 1).val (j 1).isLt) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])]

/-! ## From the blocks to the array -/

theorem zeroOffset : (![0, 0] : Fin 2 → Nat) = fun _ => 0 := funext fun a => by fin_cases a <;> rfl

/-- The printed index maps, decided once over the ten grid points: the operand's row block is the output's, both on
    column block 0; the bias row's one block is block (0, 0) at every point; the output's row block is below 10. -/
theorem blockIndices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some grid point's. -/
theorem rowBlock_onto : ∀ q : Fin 10, ∃ t : Fin cfg1.N, win1_2.index t = ![q.val, 0] :=
  (by decide +kernel : ∀ q : Fin 10, ∃ t : Fin grid1.N, win1_2.index t = ![q.val, 0])

/-- The sum's two terms replaced by equal ones. -/
theorem max_add_congr {p p' q q' : Ideal .f32} (z : Ideal .f32) (hp : p = p') (hq : q = q') :
    max (p + q) z = max (p' + q') z := by rw [hp, hq]

/-- What grid point `t` writes back is row block `t` of the whole-array function of the operands as the region finds them. -/
theorem flushed_eq (c : Dev nD) (t : Fin cfg1.N) :
    (dat1 (F := Ideal) V c).flushed 2 t
      = ((cfg1.win 2).blk t).view.read (Elt Ideal) (biasRelu (V c main_v43) (V c main_v44)) := by
  show (cfg1.win 2).cut (grid1.coords t) ((dat1 (F := Ideal) V c).after 2 t) = _
  rw [after1_2]
  unfold out1_2
  rw [View.canon_unit_zero zeroOffset]
  simp only [View.ld_unit_zero (S := S5000x256) zeroOffset, View.ld_unit_zero (S := S1x256) zeroOffset]
  obtain ⟨e0, e1, e2, e3, e4, e5⟩ := blockIndices t
  funext j
  refine (payload_apply (iblk1 V c 0 t) (iblk1 V c 1 t) j).trans ?_
  refine Eq.trans ?_ (biasRelu_apply (V c main_v43) (V c main_v44) (((cfg1.win 2).blk t).view.emb j)).symm
  -- the operand's block and the output's block sit at the same rows and columns of their arrays
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * (j 1).val = win1_2.index t (1 : Fin 2) * 256 + 1 * (j 1).val; omega
  -- the bias row's block is the whole row: its entry under the block's column is the array's under the same column
  have h1 : ((cfg1.win 1).blk t).view.emb (biasIdx (j 1).val (j 1).isLt)
      = biasIdx ((((cfg1.win 2).blk t).view.emb j) 1).val ((((cfg1.win 2).blk t).view.emb j) 1).isLt := by
    funext a; apply Fin.ext
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega
  exact max_add_congr _ (congrArg (V c main_v43) h0) (congrArg (V c main_v44) h1)

/-- An index of the array is in point `t`'s block iff each coordinate is in the block's range on its axis. -/
theorem mem_rowBlock (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v45).slice (win1_2.rect t)).set ↔ _
  rw [View.set_slice_whole, Rect.mem_set_unit]
  exact Iff.rfl

/-- The ten row blocks cover the array: row `r` is in the block of the point whose row block is `r / 5000`. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := rowBlock_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_rowBlock]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the region's run: the whole-array function of the operand arrays as the region found them. -/
theorem array_eq (c : Dev nD) :
    (dat1 (F := Ideal) V c).arrAt 2 cfg1.N
      = maximumf (F := Ideal) (addf (V c main_v43 : FVec Ideal Cert.ReferenceIdeal.S50000x256 .f32)
          (broadcastInDim Cert.ReferenceIdeal.S50000x256 ![0, 1] Cert.ReferenceIdeal.Facts₀.bcast_S1x256_S50000x256_0_1 (V c main_v44 : FVec Ideal Cert.ReferenceIdeal.S1x256 .f32)))
          (broadcastInDim Cert.ReferenceIdeal.S50000x256 ![] Cert.ReferenceIdeal.Facts₀.bcast_S_S50000x256 (constant (F := Ideal) Cert.ReferenceIdeal.S_ .f32 0x00000000#32)) :=
  (dat1 (F := Ideal) V c).arrAt_eq_of_cover 2 (biasRelu (V c main_v43) (V c main_v44)) (fun t _ => flushed_eq V c t) covered

end Cert.KernelIdeal.Region1
end
-- ==== Proof.Region2.lean ====
import proofs.«127280_j89404039233749_1_alg».proof.Proof.Gen.KernelIdeal.Frame
import proofs.«127280_j89404039233749_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

/-! # Region 2: the second layer's matrix product, block rows to the whole array

The region multiplies a [50000, 256] array by a [256, 128] array, 5000 rows at a grid point. Entry (r, j) of
the result is the sum over k of x (r, k) * w (k, j): on the kernel side the block holding row r computes it from its
5000 rows of x and the whole of w; on the reference side the host's dot_general is the same sum. Both are read
index by index against that plain sum. -/

noncomputable section
namespace Cert.KernelIdeal.Region2
open Idealize.ShloMosaic Idealize.ShloMosaic.TcCoe Idealize.SL.Sem
open Cert.KernelIdeal Cert.KernelIdeal.Gen

/-! ## The product as a plain sum -/

/-- Entry (r, j) of the product of a [50000, 256] array and a [256, 128] array: the sum over the 256 contracted
    positions of x (r, k) * w (k, j). -/
abbrev product (x : S50000x256.Idx → EReal) (w : S256x128.Idx → EReal) : S50000x128.Idx → EReal :=
  fun i => ∑ k : Fin 256, x (ValueIdx.ix2 (i 0) k) * w (ValueIdx.ix2 k (i 1))

/-! ## The reference's dot_general is that sum -/

abbrev refDot := Cert.ReferenceIdeal.dot_S50000x256_S256x128_S50000x128_1_0_0_1_n_n

/-- The left operand's row is the output's row. -/
theorem ref_lhs_row (i : S50000x128.Idx) (q : refDot.contr.Idx) : (refDot.lhsIdx i q 0).val = (i 0).val := by
  unfold DotDims.lhsIdx
  rw [dif_neg (show ¬(0 : Fin S50000x256.rank) ∈ refDot.lhsBatch by decide), dif_pos (show (0 : Fin S50000x256.rank) ∈ refDot.lhsNonContracting by decide)]
  rfl
/-- The left operand's column is the contracted position. -/
theorem ref_lhs_col (i : S50000x128.Idx) (q : refDot.contr.Idx) : (refDot.lhsIdx i q 1).val = (q ⟨0, by decide⟩).val :=
  refDot.lhsIdx_val_of_single rfl i q
/-- The right operand's row is the contracted position. -/
theorem ref_rhs_row (i : S50000x128.Idx) (q : refDot.contr.Idx) : (refDot.rhsIdx i q 0).val = (q ⟨0, by decide⟩).val :=
  refDot.rhsIdx_val_of_single rfl i q
/-- The right operand's column is the output's column. -/
theorem ref_rhs_col (i : S50000x128.Idx) (q : refDot.contr.Idx) : (refDot.rhsIdx i q 1).val = (i 1).val := by
  unfold DotDims.rhsIdx
  rw [dif_neg (show ¬(1 : Fin S256x128.rank) ∈ refDot.rhsBatch by decide), dif_pos (show (1 : Fin S256x128.rank) ∈ refDot.rhsNonContracting by decide)]
  rfl

/-- The host's dot_general at an index is the plain sum. -/
theorem ref_apply (x : FVec Ideal S50000x256 .f32) (w : FVec Ideal S256x128 .f32) (i : S50000x128.Idx) :
    Host.dotGeneral (F := Ideal) (φ₁ := .f32) (φ₂ := .f32) refDot none x w i = product x w i := by
  simp only [Host.dotGeneral]
  rw [Ideal.dotGeneral_apply, ← Equiv.sum_comp (ValueIdx.contrEquiv1 refDot 256 rfl rfl).symm]
  refine Finset.sum_congr rfl fun k _ => ?_
  have hk := ValueIdx.contrEquiv1_symm_val refDot 256 rfl rfl k
  have el : refDot.lhsIdx i ((ValueIdx.contrEquiv1 refDot 256 rfl rfl).symm k) = ValueIdx.ix2 (i 0) k := funext fun a => Fin.ext (by
    match a with
    | ⟨0, _⟩ => exact ref_lhs_row _ _
    | ⟨1, _⟩ => exact (ref_lhs_col _ _).trans hk)
  have er : refDot.rhsIdx i ((ValueIdx.contrEquiv1 refDot 256 rfl rfl).symm k) = ValueIdx.ix2 k (i 1) := funext fun a => Fin.ext (by
    match a with
    | ⟨0, _⟩ => exact (ref_rhs_row _ _).trans hk
    | ⟨1, _⟩ => exact ref_rhs_col _ _)
  rw [el, er]
  rfl

/-! ## The kernel's block product is that sum over the block's rows -/

abbrev blkDot := dot_S5000x256_S256x128_S5000x128_1_0_0_1_n_n

theorem blk_lhs_row (j : S5000x128.Idx) (q : blkDot.contr.Idx) : (blkDot.lhsIdx j q 0).val = (j 0).val := by
  unfold DotDims.lhsIdx
  rw [dif_neg (show ¬(0 : Fin S5000x256.rank) ∈ blkDot.lhsBatch by decide), dif_pos (show (0 : Fin S5000x256.rank) ∈ blkDot.lhsNonContracting by decide)]
  rfl
theorem blk_lhs_col (j : S5000x128.Idx) (q : blkDot.contr.Idx) : (blkDot.lhsIdx j q 1).val = (q ⟨0, by decide⟩).val :=
  blkDot.lhsIdx_val_of_single rfl j q
theorem blk_rhs_row (j : S5000x128.Idx) (q : blkDot.contr.Idx) : (blkDot.rhsIdx j q 0).val = (q ⟨0, by decide⟩).val :=
  blkDot.rhsIdx_val_of_single rfl j q
theorem blk_rhs_col (j : S5000x128.Idx) (q : blkDot.contr.Idx) : (blkDot.rhsIdx j q 1).val = (j 1).val := by
  unfold DotDims.rhsIdx
  rw [dif_neg (show ¬(1 : Fin S256x128.rank) ∈ blkDot.rhsBatch by decide), dif_pos (show (1 : Fin S256x128.rank) ∈ blkDot.rhsNonContracting by decide)]
  rfl

/-- The body's payload at an index of the block: the shape cast is to the same shape, the casts to bf16 are the identity at the ideal values and the
    accumulator is zero, so it is the sum over k of the block's row times the weight's column. -/
theorem payload_apply (x0 : Vec Ideal S5000x256 .f32) (x1 : Vec Ideal S256x128 .f32) (j : S5000x128.Idx) :
    k2_pay1 (F := Ideal) x0 x1 j = ∑ k : Fin 256, x0 (ValueIdx.ix2 (j 0) k) * x1 (ValueIdx.ix2 k (j 1)) := by
  unfold k2_pay1
  rw [shapeCast_self]
  refine (Ideal.matmul_constant_zero_apply blkDot none _ _ j).trans ?_
  rw [← Equiv.sum_comp (ValueIdx.contrEquiv1 blkDot 256 rfl rfl).symm]
  refine Finset.sum_congr rfl fun k _ => ?_
  have hk := ValueIdx.contrEquiv1_symm_val blkDot 256 rfl rfl k
  have el : blkDot.lhsIdx j ((ValueIdx.contrEquiv1 blkDot 256 rfl rfl).symm k) = ValueIdx.ix2 (j 0) k := funext fun a => Fin.ext (by
    match a with
    | ⟨0, _⟩ => exact blk_lhs_row _ _
    | ⟨1, _⟩ => exact (blk_lhs_col _ _).trans hk)
  have er : blkDot.rhsIdx j ((ValueIdx.contrEquiv1 blkDot 256 rfl rfl).symm k) = ValueIdx.ix2 k (j 1) := funext fun a => Fin.ext (by
    match a with
    | ⟨0, _⟩ => exact (blk_rhs_row _ _).trans hk
    | ⟨1, _⟩ => exact blk_rhs_col _ _)
  rw [el, er]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the row block of x moves with the output's row block, x is not
    cut along its columns, the weight is one block, and the output's row block is one of the ten. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the output is some point's. -/
theorem row_block_onto : ∀ q : Fin 10, ∃ t : Fin cfg2.N, win2_2.index t = ![q.val, 0] :=
  (by decide +kernel : ∀ q : Fin 10, ∃ t : Fin grid2.N, win2_2.index t = ![q.val, 0])

/-- What point t writes back is row block t of the product of the operand arrays as the region finds them. -/
theorem flushed_eq (c : Dev nD) (t : Fin cfg2.N) :
    (dat2 (F := Ideal) V c).flushed 2 t
      = ((cfg2.win 2).blk t).view.read (Elt Ideal) (product (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x256) zero_offsets, View.ld_unit_zero (S := S256x128) zero_offsets]
  obtain ⟨e0, e1, e2, e3, e4, e5⟩ := block_indices t
  funext j
  refine (payload_apply (iblk2 V c 0 t) (iblk2 V c 1 t) j).trans ?_
  rw [View.read_apply]
  refine Finset.sum_congr rfl fun k _ => ?_
  have h0 : ((cfg2.win 0).blk t).view.emb (ValueIdx.ix2 (n0 := 5000) (n1 := 256) (j 0) k)
      = ValueIdx.ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have h1 : ((cfg2.win 1).blk t).view.emb (ValueIdx.ix2 (n0 := 256) (n1 := 128) k (j 1))
      = ValueIdx.ix2 k ((((cfg2.win 2).blk t).view.emb j) 1) := by
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  exact congrArg₂ (fun a b : EReal => a * b) (congrArg (V c main_v45) h0) (congrArg (V c main_arg4) h1)

/-- An index of the array is in point t's block iff each coordinate is in the block's range on its axis. -/
theorem mem_row_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The row blocks tile the array: row r lies in the block of the point whose row block is r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := row_block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_row_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region's run is the product of the operand arrays as the region found them. -/
theorem array_product (c : Dev nD) :
    (dat2 (F := Ideal) V c).arrAt 2 cfg2.N = product (V c main_v45) (V c main_arg4) :=
  (dat2 (F := Ideal) V c).arrAt_eq_of_cover 2 (product (V c main_v45) (V c main_arg4)) (fun t _ => flushed_eq V c t) covered

/-- The same, stated with the reference's own dot_general. -/
theorem array_eq (c : Dev nD) :
    (dat2 (F := Ideal) V c).arrAt 2 cfg2.N
      = Host.dotGeneral (F := Ideal) (φ₁ := .f32) (φ₂ := .f32) Cert.ReferenceIdeal.dot_S50000x256_S256x128_S50000x128_1_0_0_1_n_n none
          (V c main_v45 : FVec Ideal Cert.ReferenceIdeal.S50000x256 .f32) (V c main_arg4 : FVec Ideal Cert.ReferenceIdeal.S256x128 .f32) :=
  (array_product V c).trans (funext fun i => (ref_apply (V c main_v45) (V c main_arg4) i).symm)

end Cert.KernelIdeal.Region2
end
-- ==== Proof.Region3.lean ====
import proofs.«127280_j89404039233749_1_alg».proof.Proof.Gen.KernelIdeal.Frame
import proofs.«127280_j89404039233749_1_alg».proof.Proof.Gen.ReferenceIdeal
import Idealize.ShloMosaic.PureOps.Ideal
import Idealize.ShloMosaic.Lib.Pipeline.Value
import Idealize.ShloMosaic.Lib.ValueIdx

set_option maxRecDepth 16384

noncomputable section
namespace Cert.KernelIdeal.Region3
open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! # Region 3: the bias row added to every row

Entry `(r, j)` of the output array is `a (r, j) + b (0, j)`, where `a` is the [50000, 128] operand and `b` the
[1, 128] bias row. Each grid point computes that on one block of 5000 rows; the ten blocks tile the array. -/

/-- The whole-array function: the bias row broadcast along the rows, added. -/
abbrev biasAdd (a : FVec Ideal Cert.ReferenceIdeal.S50000x128 .f32) (b : FVec Ideal Cert.ReferenceIdeal.S1x128 .f32) :
    FVec Ideal Cert.ReferenceIdeal.S50000x128 .f32 :=
  addf (F := Ideal) (s := Cert.ReferenceIdeal.S50000x128) (φ := .f32) a
    (broadcastInDim (s := Cert.ReferenceIdeal.S1x128) (α := Ideal .f32) Cert.ReferenceIdeal.S50000x128 ![0, 1] Cert.ReferenceIdeal.Facts₀.bcast_S1x128_S50000x128_0_1 b)

/-- The bias row's index under column `n`: row 0, column `n`. -/
def biasIdx (n : Nat) (hn : n < 128) : S1x128.Idx := fun a => match a with
  | ⟨0, _⟩ => ⟨0, Nat.one_pos⟩
  | ⟨1, _⟩ => ⟨n, hn⟩

/-- The whole-array function read at an index. -/
theorem biasAdd_apply (a : FVec Ideal Cert.ReferenceIdeal.S50000x128 .f32) (b : FVec Ideal Cert.ReferenceIdeal.S1x128 .f32)
    (i : Cert.ReferenceIdeal.S50000x128.Idx) :
    biasAdd a b i = a i + b (biasIdx (i 1).val (i 1).isLt) := by
  show a i + broadcastInDim Cert.ReferenceIdeal.S50000x128 ![0, 1] Cert.ReferenceIdeal.Facts₀.bcast_S1x128_S50000x128_0_1 b i = _
  rw [broadcastInDim_apply _ Cert.ReferenceIdeal.Facts₀.bcast_S1x128_S50000x128_0_1 b i (biasIdx (i 1).val (i 1).isLt) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]

/-- The body's payload on one block, read at an index of the block. -/
theorem payload_apply (x0 : Vec Ideal S5000x128 .f32) (x1 : Vec Ideal S1x128 .f32) (j : S5000x128.Idx) :
    k3_pay1 x0 x1 j = x0 j + x1 (biasIdx (j 1).val (j 1).isLt) := by
  unfold k3_pay1
  rw [shapeCast_self, shapeCast_self]
  show x0 j + broadcastTo S5000x128 x1 broadcasts_S1x128_S5000x128 j = _
  rw [broadcastTo_apply x1 broadcasts_S1x128_S5000x128 j (biasIdx (j 1).val (j 1).isLt) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]

/-! ## From the blocks to the array -/

theorem zeroOffset : (![0, 0] : Fin 2 → Nat) = fun _ => 0 := funext fun a => by fin_cases a <;> rfl

/-- The printed index maps, decided once over the ten grid points: the operand's row block is the output's, both on
    column block 0; the bias row's one block is block (0, 0) at every point; the output's row block is below 10. -/
theorem blockIndices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block is some grid point's. -/
theorem rowBlock_onto : ∀ q : Fin 10, ∃ t : Fin cfg3.N, win3_2.index t = ![q.val, 0] :=
  (by decide +kernel : ∀ q : Fin 10, ∃ t : Fin grid3.N, win3_2.index t = ![q.val, 0])

/-- The sum's two terms replaced by equal ones. -/
theorem add_congr {p p' q q' : Ideal .f32} (hp : p = p') (hq : q = q') : p + q = p' + q' := by rw [hp, hq]

/-- What grid point `t` writes back is row block `t` of the whole-array function of the operands as the region finds them. -/
theorem flushed_eq (c : Dev nD) (t : Fin cfg3.N) :
    (dat3 (F := Ideal) V c).flushed 2 t
      = ((cfg3.win 2).blk t).view.read (Elt Ideal) (biasAdd (V c main_v59) (V c main_v60)) := by
  show (cfg3.win 2).cut (grid3.coords t) ((dat3 (F := Ideal) V c).after 2 t) = _
  rw [after3_2]
  unfold out3_2
  rw [View.canon_unit_zero zeroOffset]
  simp only [View.ld_unit_zero (S := S5000x128) zeroOffset, View.ld_unit_zero (S := S1x128) zeroOffset]
  obtain ⟨e0, e1, e2, e3, e4, e5⟩ := blockIndices t
  funext j
  refine (payload_apply (iblk3 V c 0 t) (iblk3 V c 1 t) j).trans ?_
  refine Eq.trans ?_ (biasAdd_apply (V c main_v59) (V c main_v60) (((cfg3.win 2).blk t).view.emb j)).symm
  -- the operand's block and the output's block sit at the same rows and columns of their arrays
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  -- the bias row's block is the whole row: its entry under the block's column is the array's under the same column
  have h1 : ((cfg3.win 1).blk t).view.emb (biasIdx (j 1).val (j 1).isLt)
      = biasIdx ((((cfg3.win 2).blk t).view.emb j) 1).val ((((cfg3.win 2).blk t).view.emb j) 1).isLt := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  exact add_congr (congrArg (V c main_v59) h0) (congrArg (V c main_v60) h1)

/-- An index of the array is in point `t`'s block iff each coordinate is in the block's range on its axis. -/
theorem mem_rowBlock (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- The ten row blocks cover the array: row `r` is in the block of the point whose row block is `r / 5000`. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := rowBlock_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_rowBlock]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region's run: the whole-array function of the operand arrays as the region found them. -/
theorem array_eq (c : Dev nD) :
    (dat3 (F := Ideal) V c).arrAt 2 cfg3.N
      = addf (F := Ideal) (s := Cert.ReferenceIdeal.S50000x128) (φ := .f32) (V c main_v59)
          (broadcastInDim (s := Cert.ReferenceIdeal.S1x128) (α := Ideal .f32) Cert.ReferenceIdeal.S50000x128 ![0, 1] Cert.ReferenceIdeal.Facts₀.bcast_S1x128_S50000x128_0_1 (V c main_v60)) :=
  (dat3 (F := Ideal) V c).arrAt_eq_of_cover 2 (biasAdd (V c main_v59) (V c main_v60)) (fun t _ => flushed_eq V c t) covered

end Cert.KernelIdeal.Region3
end
-- ==== Proof.KernelValue.lean ====
import proofs.«127280_j89404039233749_1_alg».proof.Proof.Gen.KernelIdeal.Frame
import proofs.«127280_j89404039233749_1_alg».proof.Proof.HostStretch
import proofs.«127280_j89404039233749_1_alg».proof.Proof.RunOut
import proofs.«127280_j89404039233749_1_alg».proof.Proof.RefRead
import proofs.«127280_j89404039233749_1_alg».proof.Proof.Region0
import proofs.«127280_j89404039233749_1_alg».proof.Proof.Region1
import proofs.«127280_j89404039233749_1_alg».proof.Proof.Region2
import proofs.«127280_j89404039233749_1_alg».proof.Proof.Region3

/-!
  The kernel program's result array as ONE function of the six argument arrays: the contents of the TensorCore's buffers
  followed boundary by boundary through @main — each host stretch by the stage lemmas over an arbitrary valuation, each
  region by its whole-array value — down to the result buffer after the last region. Every stage is named as the
  reference program's stage of the same operations, so the last line IS the reference's result term:
  `z2 = A·relu(A·(x·W1) + b1)·W2 + b2` with `A` the normalised neighbourhood sum, on both sides.
-/

noncomputable section

namespace Cert.KernelIdeal.KValue

open Cert.KernelIdeal Cert.KernelIdeal.Gen Cert.KernelIdeal.Host Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## After the first stretch -/

theorem W1_v3 : W1 m ρ c (Proc.devRef .tc main_v3) = val_main_v3 (F := Ideal) (m ((c : Thread nD τ).loc main_arg1)) := first_v3 (W0 m ρ c)
theorem W1_v6 : W1 m ρ c (Proc.devRef .tc main_v6) = val_main_v6 (F := Ideal) (m ((c : Thread nD τ).loc main_arg1)) := first_v6 (W0 m ρ c)
theorem W1_v12 : W1 m ρ c (Proc.devRef .tc main_v12) = val_main_v12 (F := Ideal) (m ((c : Thread nD τ).loc main_arg1)) := first_v12 (W0 m ρ c)
theorem W1_v13 : W1 m ρ c (Proc.devRef .tc main_v13) = val_main_v13 (F := Ideal) (m ((c : Thread nD τ).loc main_arg1)) := first_v13 (W0 m ρ c)
theorem W1_cst_2 : W1 m ρ c (Proc.devRef .tc main_cst_2) = val_main_cst_2 (F := Ideal) := first_cst_2 (W0 m ρ c)
theorem W1_arg0 : W1 m ρ c (Proc.devRef .tc main_arg0) = m ((c : Thread nD τ).loc main_arg0) := first_keeps_arg0 (W0 m ρ c)
theorem W1_arg2 : W1 m ρ c (Proc.devRef .tc main_arg2) = m ((c : Thread nD τ).loc main_arg2) := first_keeps_arg2 (W0 m ρ c)
theorem W1_arg3 : W1 m ρ c (Proc.devRef .tc main_arg3) = m ((c : Thread nD τ).loc main_arg3) := first_keeps_arg3 (W0 m ρ c)
theorem W1_arg4 : W1 m ρ c (Proc.devRef .tc main_arg4) = m ((c : Thread nD τ).loc main_arg4) := first_keeps_arg4 (W0 m ρ c)
theorem W1_arg5 : W1 m ρ c (Proc.devRef .tc main_arg5) = m ((c : Thread nD τ).loc main_arg5) := first_keeps_arg5 (W0 m ρ c)

/-! ## After the selection -/

theorem W2_v14 : W2 m ρ c (Proc.devRef .tc main_v14) = val_main_v14 (F := Ideal) (m ((c : Thread nD τ).loc main_arg1)) :=
  where_v14 (W1 m ρ c) _ (W1_v12 m ρ c) (W1_v13 m ρ c) (W1_cst_2 m ρ c)
theorem W2_v3 : W2 m ρ c (Proc.devRef .tc main_v3) = val_main_v3 (F := Ideal) (m ((c : Thread nD τ).loc main_arg1)) := (where_keeps_v3 (W1 m ρ c)).trans (W1_v3 m ρ c)
theorem W2_v6 : W2 m ρ c (Proc.devRef .tc main_v6) = val_main_v6 (F := Ideal) (m ((c : Thread nD τ).loc main_arg1)) := (where_keeps_v6 (W1 m ρ c)).trans (W1_v6 m ρ c)
theorem W2_arg0 : W2 m ρ c (Proc.devRef .tc main_arg0) = m ((c : Thread nD τ).loc main_arg0) := (where_keeps_arg0 (W1 m ρ c)).trans (W1_arg0 m ρ c)
theorem W2_arg2 : W2 m ρ c (Proc.devRef .tc main_arg2) = m ((c : Thread nD τ).loc main_arg2) := (where_keeps_arg2 (W1 m ρ c)).trans (W1_arg2 m ρ c)
theorem W2_arg3 : W2 m ρ c (Proc.devRef .tc main_arg3) = m ((c : Thread nD τ).loc main_arg3) := (where_keeps_arg3 (W1 m ρ c)).trans (W1_arg3 m ρ c)
theorem W2_arg4 : W2 m ρ c (Proc.devRef .tc main_arg4) = m ((c : Thread nD τ).loc main_arg4) := (where_keeps_arg4 (W1 m ρ c)).trans (W1_arg4 m ρ c)
theorem W2_arg5 : W2 m ρ c (Proc.devRef .tc main_arg5) = m ((c : Thread nD τ).loc main_arg5) := (where_keeps_arg5 (W1 m ρ c)).trans (W1_arg5 m ρ c)

/-! ## At the first region's entry -/

theorem W3_v29 : W3 m ρ c (Proc.devRef .tc main_v29) = val_main_v29 (F := Ideal) (m ((c : Thread nD τ).loc main_arg1)) :=
  norm_v29 (W2 m ρ c) _ (W2_v14 m ρ c) (W2_v3 m ρ c) (W2_v6 m ρ c)
theorem W3_v3 : W3 m ρ c (Proc.devRef .tc main_v3) = val_main_v3 (F := Ideal) (m ((c : Thread nD τ).loc main_arg1)) := (norm_keeps_v3 (W2 m ρ c)).trans (W2_v3 m ρ c)
theorem W3_v6 : W3 m ρ c (Proc.devRef .tc main_v6) = val_main_v6 (F := Ideal) (m ((c : Thread nD τ).loc main_arg1)) := (norm_keeps_v6 (W2 m ρ c)).trans (W2_v6 m ρ c)
theorem W3_arg0 : W3 m ρ c (Proc.devRef .tc main_arg0) = m ((c : Thread nD τ).loc main_arg0) := (norm_keeps_arg0 (W2 m ρ c)).trans (W2_arg0 m ρ c)
theorem W3_arg2 : W3 m ρ c (Proc.devRef .tc main_arg2) = m ((c : Thread nD τ).loc main_arg2) := (norm_keeps_arg2 (W2 m ρ c)).trans (W2_arg2 m ρ c)
theorem W3_arg3 : W3 m ρ c (Proc.devRef .tc main_arg3) = m ((c : Thread nD τ).loc main_arg3) := (norm_keeps_arg3 (W2 m ρ c)).trans (W2_arg3 m ρ c)
theorem W3_arg4 : W3 m ρ c (Proc.devRef .tc main_arg4) = m ((c : Thread nD τ).loc main_arg4) := (norm_keeps_arg4 (W2 m ρ c)).trans (W2_arg4 m ρ c)
theorem W3_arg5 : W3 m ρ c (Proc.devRef .tc main_arg5) = m ((c : Thread nD τ).loc main_arg5) := (norm_keeps_arg5 (W2 m ρ c)).trans (W2_arg5 m ρ c)
theorem V3_arg0 : V3 m ρ c main_arg0 = m ((c : Thread nD τ).loc main_arg0) := W3_arg0 m ρ c
theorem V3_arg2 : V3 m ρ c main_arg2 = m ((c : Thread nD τ).loc main_arg2) := W3_arg2 m ρ c

/-! ## After the first region: `h1 = x · W1` -/

theorem W4_v30 : W4 m ρ c (Proc.devRef .tc main_v30) = val_main_v30 (F := Ideal) (m ((c : Thread nD τ).loc main_arg0)) (m ((c : Thread nD τ).loc main_arg2)) := by
  refine (W4_arr m ρ c 2).trans ((Cert.KernelIdeal.Region0.array_eq (V3 m ρ) c).trans ?_)
  rw [V3_arg0 m ρ c, V3_arg2 m ρ c]
  rfl
theorem W4_v3 : W4 m ρ c (Proc.devRef .tc main_v3) = val_main_v3 (F := Ideal) (m ((c : Thread nD τ).loc main_arg1)) := (W4_of_ne m ρ c main_v3 (by decide)).trans (W3_v3 m ρ c)
theorem W4_v6 : W4 m ρ c (Proc.devRef .tc main_v6) = val_main_v6 (F := Ideal) (m ((c : Thread nD τ).loc main_arg1)) := (W4_of_ne m ρ c main_v6 (by decide)).trans (W3_v6 m ρ c)
theorem W4_v29 : W4 m ρ c (Proc.devRef .tc main_v29) = val_main_v29 (F := Ideal) (m ((c : Thread nD τ).loc main_arg1)) := (W4_of_ne m ρ c main_v29 (by decide)).trans (W3_v29 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)

/-! ## At the second region's entry: the first neighbourhood sum and the bias row -/

theorem W5_v43 : W5 m ρ c (Proc.devRef .tc main_v43) = val_main_v43 (F := Ideal) (m ((c : Thread nD τ).loc main_arg0)) (m ((c : Thread nD τ).loc main_arg1)) (m ((c : Thread nD τ).loc main_arg2)) :=
  agg1_v43 (W4 m ρ c) _ _ _ (W4_v30 m ρ c) (W4_v3 m ρ c) (W4_v6 m ρ c) (W4_v29 m ρ c)
theorem W5_v44 : W5 m ρ c (Proc.devRef .tc main_v44) = val_main_v44 (F := Ideal) (m ((c : Thread nD τ).loc main_arg3)) :=
  (agg1_v44 (W4 m ρ c)).trans (congrArg (val_main_v44 (F := Ideal)) (W4_arg3 m ρ c))
theorem W5_v3 : W5 m ρ c (Proc.devRef .tc main_v3) = val_main_v3 (F := Ideal) (m ((c : Thread nD τ).loc main_arg1)) := (agg1_keeps_v3 (W4 m ρ c)).trans (W4_v3 m ρ c)
theorem W5_v6 : W5 m ρ c (Proc.devRef .tc main_v6) = val_main_v6 (F := Ideal) (m ((c : Thread nD τ).loc main_arg1)) := (agg1_keeps_v6 (W4 m ρ c)).trans (W4_v6 m ρ c)
theorem W5_v29 : W5 m ρ c (Proc.devRef .tc main_v29) = val_main_v29 (F := Ideal) (m ((c : Thread nD τ).loc main_arg1)) := (agg1_keeps_v29 (W4 m ρ c)).trans (W4_v29 m ρ c)
theorem W5_arg4 : W5 m ρ c (Proc.devRef .tc main_arg4) = m ((c : Thread nD τ).loc main_arg4) := (agg1_keeps_arg4 (W4 m ρ c)).trans (W4_arg4 m ρ c)
theorem W5_arg5 : W5 m ρ c (Proc.devRef .tc main_arg5) = m ((c : Thread nD τ).loc main_arg5) := (agg1_keeps_arg5 (W4 m ρ c)).trans (W4_arg5 m ρ c)
theorem V5_v43 : V5 m ρ c main_v43 = val_main_v43 (F := Ideal) (m ((c : Thread nD τ).loc main_arg0)) (m ((c : Thread nD τ).loc main_arg1)) (m ((c : Thread nD τ).loc main_arg2)) := W5_v43 m ρ c
theorem V5_v44 : V5 m ρ c main_v44 = val_main_v44 (F := Ideal) (m ((c : Thread nD τ).loc main_arg3)) := W5_v44 m ρ c

/-! ## After the second region: `z1 = relu(agg1 + b1)` -/

theorem W6_v45 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Cert.KernelIdeal.Region1.array_eq (V5 m ρ) c).trans ?_)
  rw [V5_v43 m ρ c, V5_v44 m ρ c]
  rfl
theorem W6_v3 : W6 m ρ c (Proc.devRef .tc main_v3) = val_main_v3 (F := Ideal) (m ((c : Thread nD τ).loc main_arg1)) := (W6_of_ne m ρ c main_v3 (by decide)).trans (W5_v3 m ρ c)
theorem W6_v6 : W6 m ρ c (Proc.devRef .tc main_v6) = val_main_v6 (F := Ideal) (m ((c : Thread nD τ).loc main_arg1)) := (W6_of_ne m ρ c main_v6 (by decide)).trans (W5_v6 m ρ c)
theorem W6_v29 : W6 m ρ c (Proc.devRef .tc main_v29) = val_main_v29 (F := Ideal) (m ((c : Thread nD τ).loc main_arg1)) := (W6_of_ne m ρ c main_v29 (by decide)).trans (W5_v29 m ρ c)
theorem W6_arg4 : W6 m ρ c (Proc.devRef .tc main_arg4) = m ((c : Thread nD τ).loc main_arg4) := (W6_of_ne m ρ c main_arg4 (by decide)).trans (W5_arg4 m ρ c)
theorem W6_arg5 : W6 m ρ c (Proc.devRef .tc main_arg5) = m ((c : Thread nD τ).loc main_arg5) := (W6_of_ne m ρ c main_arg5 (by decide)).trans (W5_arg5 m ρ c)
theorem V6_v45 : V6 m ρ c main_v45 = val_main_v47 (F := Ideal) (m ((c : Thread nD τ).loc main_arg0)) (m ((c : Thread nD τ).loc main_arg1)) (m ((c : Thread nD τ).loc main_arg2)) (m ((c : Thread nD τ).loc main_arg3)) := W6_v45 m ρ c
theorem V6_arg4 : V6 m ρ c main_arg4 = m ((c : Thread nD τ).loc main_arg4) := W6_arg4 m ρ c

/-! ## After the third region: `h2 = z1 · W2` -/

theorem W7_v46 : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Cert.KernelIdeal.Region2.array_eq (V6 m ρ) c).trans ?_)
  rw [V6_v45 m ρ c, V6_arg4 m ρ c]
  rfl
theorem W7_v3 : W7 m ρ c (Proc.devRef .tc main_v3) = val_main_v3 (F := Ideal) (m ((c : Thread nD τ).loc main_arg1)) := (W7_of_ne m ρ c main_v3 (by decide)).trans (W6_v3 m ρ c)
theorem W7_v6 : W7 m ρ c (Proc.devRef .tc main_v6) = val_main_v6 (F := Ideal) (m ((c : Thread nD τ).loc main_arg1)) := (W7_of_ne m ρ c main_v6 (by decide)).trans (W6_v6 m ρ c)
theorem W7_v29 : W7 m ρ c (Proc.devRef .tc main_v29) = val_main_v29 (F := Ideal) (m ((c : Thread nD τ).loc main_arg1)) := (W7_of_ne m ρ c main_v29 (by decide)).trans (W6_v29 m ρ c)
theorem W7_arg5 : W7 m ρ c (Proc.devRef .tc main_arg5) = m ((c : Thread nD τ).loc main_arg5) := (W7_of_ne m ρ c main_arg5 (by decide)).trans (W6_arg5 m ρ c)

/-! ## At the last region's entry: the second neighbourhood sum and the bias row -/

theorem V8_v59 : V8 m ρ c main_v59 = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  agg2_v59 (W7 m ρ c) _ _ _ _ _ (W7_v46 m ρ c) (W7_v3 m ρ c) (W7_v6 m ρ c) (W7_v29 m ρ c)
theorem V8_v60 : V8 m ρ c main_v60 = val_main_v62 (F := Ideal) (m ((c : Thread nD τ).loc main_arg5)) :=
  (agg2_v60 (W7 m ρ c)).trans (congrArg (val_main_v62 (F := Ideal)) (W7_arg5 m ρ c))

/-! ## The result: `z2 = agg2 + b2` -/

theorem result : W9 m ρ c (Proc.devRef .tc main_v61) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Cert.KernelIdeal.Region3.array_eq (V8 m ρ) c).trans ?_)
  rw [V8_v59 m ρ c, V8_v60 m ρ c]
  rfl

end Cert.KernelIdeal.KValue

namespace Cert.KernelIdeal.KValue

open Cert.KernelIdeal Cert.KernelIdeal.Gen Idealize.ShloMosaic Idealize.ShloMosaic.TcCoe Idealize.SL.Sem
open Cert.ReferenceIdeal.ReadP

/-- The kernel program's run, read: every weakly fair execution terminates, nothing faulting, with the result array at the
    reference's result term of the launch contents and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v61) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.RunOut.run_out m ρ)

end Cert.KernelIdeal.KValue

end
-- ==== Proof.lean ====
/-
  Two-layer graph convolution, `z2 = A·relu(A·(x·W1) + b1)·W2 + b2`, where `A` gathers the rows of its operand at the edges'
  sources (the graph's edges followed by one self-loop per node), scales each by `norm = dinv[src]·dinv[dst]`
  (`dinv` the inverse square root of the in-degree, zero where the degree is not positive) and sums them at the
  destinations. The kernel program computes the two matrix products (operands cast to bf16, accumulated in f32 from zero)
  and the two bias steps (the first under `max(·, 0)`) in four pallas_calls over ten row blocks of 5000 nodes each, and
  leaves `A` to host operations between them; the reference is jnp's `x @ W`, the same gather / scatter-add, `+ b` and
  `relu`. Over the extended reals a change of float format is the identity and a matrix product accumulated from zero is the
  plain sum over the contracted axis, so region by region the kernel's arrays are the reference's stages:
    Region0 / Region2  block t of the product is rows 5000t … 5000t+4999 of `dot_general`;
    Region1 / Region3  block t of `agg + bias_row` (under `max(·, 0)` in Region1) is those rows of the reference's broadcast sum;
    HostStretch        the host operations between the regions are the reference's own, read from an arbitrary valuation;
    KernelValue        the buffer contents followed through @main: the result array IS the reference's result term;
    RunOut             @main's run with the result buffer kept in the post (the launch theorem over the generated segments);
    RefRun / RefRead   the reference's run read back and its stages, one operation at a time.
  No law of the extended reals beyond the matrix product's sum is used, and the precondition (finite inputs) is never opened.
-/
import proofs.«127280_j89404039233749_1_alg».proof.Defs
import proofs.«127280_j89404039233749_1_alg».proof.Proof.Gen.Kernel
import proofs.«127280_j89404039233749_1_alg».proof.Proof.Gen.Kernel.Skeleton
import proofs.«127280_j89404039233749_1_alg».proof.Proof.Gen.Kernel.Launch
import proofs.«127280_j89404039233749_1_alg».proof.Proof.Gen.Kernel.Points
import proofs.«127280_j89404039233749_1_alg».proof.Proof.Gen.Kernel.Frame
import proofs.«127280_j89404039233749_1_alg».proof.Proof.Gen.KernelIdeal
import proofs.«127280_j89404039233749_1_alg».proof.Proof.Gen.KernelIdeal.Skeleton
import proofs.«127280_j89404039233749_1_alg».proof.Proof.Gen.KernelIdeal.Launch
import proofs.«127280_j89404039233749_1_alg».proof.Proof.Gen.KernelIdeal.Points
import proofs.«127280_j89404039233749_1_alg».proof.Proof.Gen.KernelIdeal.Frame
import proofs.«127280_j89404039233749_1_alg».proof.Proof.Gen.ReferenceIdeal
import proofs.«127280_j89404039233749_1_alg».proof.Proof.Gen.Pre_finite_inputs
import proofs.«127280_j89404039233749_1_alg».proof.Proof.RefRun
import proofs.«127280_j89404039233749_1_alg».proof.Proof.RefRead
import proofs.«127280_j89404039233749_1_alg».proof.Proof.KernelValue
import Idealize.ShloMosaic.Adequacy
import Idealize.ShloMosaic.Init

noncomputable section

namespace Cert.Proof

open Idealize.ShloMosaic Idealize.SL.Sem

/-- The word-level kernel program runs and leaves its arguments as launched: the generated frame of its four regions. -/
theorem frame_kernel : Cert.frame_Kernel := fun m ρ _ => Cert.Kernel.Gen.frame m ρ

/-- The same at the ideal instance. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Over the extended reals both programs end with `A·relu(A·(x·W1) + b1)·W2 + b2`, `A` the degree-normalised neighbourhood sum
    with self-loops: the kernel program's result array is the reference's result term of the launch contents
    (`KValue.run`), the reference's is that term by its run read back, and the two memories agree on the arguments. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
